-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x4096, .f32⟩
  | .local _ .vmem, ⟨1, _⟩ => ⟨S1024x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S4096x4096.size a
  hwx0_0 : ∀ i : grid0.Coords, EltTy.bits .f32 = 32 ∨ (Rect.block (s := S4096x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.AffineSpec.lean ====
/-
  The function both programs compute: a linear layer `x · Wᵀ + b` over the extended reals.
  Entry `(r, c)` of the result is the sum over `k` of `x[r, k] · W[c, k]`, plus the bias entry of column `c`.
  Both operands are contracted along their SECOND axis, so no transpose appears in the formula; the bias is
  taken as a one-row matrix (the kernel stages it so), and the last lemma reads a one-row matrix that is a
  reshaped vector back at the vector.
-/
import Idealize.ShloMosaic.PureOps.Ideal
import Idealize.ShloMosaic.Lib.ValueIdx
import Idealize.ShloMosaic.Lib.Pipeline.Value

noncomputable section

open scoped BigOperators

namespace Cert.Affine

open Idealize.ShloMosaic Idealize.ShloMosaic.ValueIdx

/-- `x · Wᵀ + b`, index by index: row `r` of `x` against row `c` of `W`, plus `b[0, c]`. -/
def affine (x w : (⟨2, ![4096, 4096]⟩ : Shape).Idx → EReal) (b : (⟨2, ![1, 4096]⟩ : Shape).Idx → EReal) :
    (⟨2, ![4096, 4096]⟩ : Shape).Idx → EReal :=
  fun i => (∑ k : Fin 4096, x (ix2 (i 0) k) * w (ix2 (i 1) k)) + b (ix2 (0 : Fin 1) (i 1))

/-- A vector of 4096 entries reshaped to one row of 4096, read at column `c`, is the vector's entry `c`:
    both have row-major position `c`. -/
theorem row_of_vector (v : (⟨1, ![4096]⟩ : Shape).Idx → EReal)
    (h : (⟨1, ![4096]⟩ : Shape).ShapeCasts (⟨2, ![1, 4096]⟩ : Shape)) (c : Fin 4096) :
    shapeCast (⟨2, ![1, 4096]⟩ : Shape) v h (ix2 (0 : Fin 1) c) = v (ix1 c) := by
  refine shapeCast_apply v h (ix2 (0 : Fin 1) c) (ix1 c) ?_
  rw [Shape.rowMajor_val_one, Shape.rowMajor_val_two]
  show c.val = (0 : Fin 1).val * 4096 + c.val
  simp

end Cert.Affine

end
-- ==== Proof.ReferenceValue.lean ====
/-
  The reference computes `x · Wᵀ + b`.
  It first transposes `W`, then contracts the second axis of `x` with the FIRST axis of `Wᵀ`:
  entry `(r, c)` is the sum over `k` of `x[r, k] · Wᵀ[k, c]`, and `Wᵀ[k, c] = W[c, k]`, so each term is
  `x[r, k] · W[c, k]`, in the same order of `k` and with the factors in the same order as in the specification.
  The bias vector is broadcast along the rows, so entry `(r, c)` receives `b[c]`; the specification takes the bias
  as a one-row matrix, and a vector reshaped to one row has `b[c]` in column `c`.
-/
import proofs.«122096_g21251498180730_pilotgen1_62_2_alg».proof.Proof.Gen.ReferenceIdeal.Read
import proofs.«122096_g21251498180730_pilotgen1_62_2_alg».proof.Proof.AffineSpec

noncomputable section

open scoped BigOperators

namespace Cert.ReferenceIdeal.RefValue

open Cert.ReferenceIdeal Cert.ReferenceIdeal.Read Idealize.ShloMosaic Idealize.ShloMosaic.ValueIdx Cert.Affine

/-- The left operand of term `k` of entry `(r, c)` sits at row `r`, column `k` of `x`. -/
theorem left_index (r c k : Fin 4096) : lidx_main_v1 (ix2 r c) k = ix2 r k :=
  funext fun a => Fin.ext (by match a with | ⟨0, _⟩ => rfl | ⟨1, _⟩ => rfl)

/-- The right operand of term `k` of entry `(r, c)` sits at `(k, c)` of the transpose, which is `(c, k)` of `W`. -/
theorem right_index (r c k : Fin 4096) : idx_main_v0 (ridx_main_v1 (ix2 r c) k) = ix2 c k :=
  funext fun a => Fin.ext (by match a with | ⟨0, _⟩ => rfl | ⟨1, _⟩ => rfl)

/-- The bias broadcast twice, to one row and then along the rows, is read at the entry's column. -/
theorem bias_index (r c : Fin 4096) : idx_main_v2 (idx_main_v3 (ix2 r c)) = ix1 c :=
  funext fun a => Fin.ext (by match a with | ⟨0, _⟩ => rfl)

/-- The reference's result, as a function of its three arguments, is `x · Wᵀ + b` with the bias read as the
    one-row reshape of the vector. -/
theorem result_eq (x0 x1 : (⟨2, ![4096, 4096]⟩ : Shape).Idx → EReal) (x2 : (⟨1, ![4096]⟩ : Shape).Idx → EReal)
    (h : (⟨1, ![4096]⟩ : Shape).ShapeCasts (⟨2, ![1, 4096]⟩ : Shape)) :
    val_main_v4 (F := Ideal) x0 x1 x2 = affine x0 x1 (shapeCast (⟨2, ![1, 4096]⟩ : Shape) x2 h) := by
  funext i
  obtain ⟨r, c, rfl⟩ : ∃ r c : Fin 4096, i = ix2 r c := ⟨i 0, i 1, eq_ix2 i⟩
  rw [val_main_v4_apply, val_main_v1_apply, val_main_v3_apply, val_main_v2_apply]
  simp only [val_main_v0_apply, left_index, right_index, bias_index]
  show (∑ k : Fin 4096, x0 (ix2 r k) * x1 (ix2 c k)) + x2 (ix1 c)
    = (∑ k : Fin 4096, x0 (ix2 r k) * x1 (ix2 c k)) + shapeCast (⟨2, ![1, 4096]⟩ : Shape) x2 h (ix2 (0 : Fin 1) c)
  rw [row_of_vector]

end Cert.ReferenceIdeal.RefValue

end
-- ==== Proof.BodyValue.lean ====
/-
  What the kernel body stores, read at one entry of the output block.
  The body loads a block of 1024 rows of `x`, a block of 512 rows of `W` and 512 entries of the bias row, multiplies
  the first block by the TRANSPOSE of the second into a zero accumulator (both contracted along their second axis, all
  4096 columns at once), and adds the bias row broadcast along the 1024 rows. So entry `(p, q)` of what it stores is
  the sum over `k` of `xblock[p, k] · wblock[q, k]`, plus `bias[0, q]`. Over the extended reals the zero accumulator
  adds nothing, and the sum is over the 4096 values of `k` in their natural order.
-/
import proofs.«122096_g21251498180730_pilotgen1_62_2_alg».proof.Proof.Gen.KernelIdeal.Skeleton
import proofs.«122096_g21251498180730_pilotgen1_62_2_alg».proof.Proof.AffineSpec
import Idealize.ShloMosaic.Lib.ValueIdx
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.Affine

/-! ## The product's operand indices -/

/-- The left operand's row is the output entry's row. -/
theorem lhs_mm_0 (j : S1024x512.Idx) (q : dot_S1024x4096_S512x4096_S1024x512_1_1_0_0_n_n.contr.Idx) :
    (dot_S1024x4096_S512x4096_S1024x512_1_1_0_0_n_n.lhsIdx j q 0).val = (j 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
/-- The left operand's column is the summation index. -/
theorem lhs_mm_1 (j : S1024x512.Idx) (q : dot_S1024x4096_S512x4096_S1024x512_1_1_0_0_n_n.contr.Idx) :
    (dot_S1024x4096_S512x4096_S1024x512_1_1_0_0_n_n.lhsIdx j q 1).val = (q ⟨0, by decide⟩).val :=
  dot_S1024x4096_S512x4096_S1024x512_1_1_0_0_n_n.lhsIdx_val_of_single rfl j q
/-- The right operand's ROW is the output entry's COLUMN: the right operand enters transposed. -/
theorem rhs_mm_0 (j : S1024x512.Idx) (q : dot_S1024x4096_S512x4096_S1024x512_1_1_0_0_n_n.contr.Idx) :
    (dot_S1024x4096_S512x4096_S1024x512_1_1_0_0_n_n.rhsIdx j q 0).val = (j 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
/-- The right operand's column is the summation index. -/
theorem rhs_mm_1 (j : S1024x512.Idx) (q : dot_S1024x4096_S512x4096_S1024x512_1_1_0_0_n_n.contr.Idx) :
    (dot_S1024x4096_S512x4096_S1024x512_1_1_0_0_n_n.rhsIdx j q 1).val = (q ⟨0, by decide⟩).val :=
  dot_S1024x4096_S512x4096_S1024x512_1_1_0_0_n_n.rhsIdx_val_of_single rfl j q

/-! ## The two summands -/

/-- The product into the zero accumulator, at entry `(p, q)`: row `p` of the left block against row `q` of the right. -/
theorem product_apply (v0 : FVec Ideal S1024x4096 .f32) (v1 : FVec Ideal S512x4096 .f32) (p : Fin 1024) (q : Fin 512) :
    matmul (F := Ideal) (φ₁ := .f32) (φ₂ := .f32) dot_S1024x4096_S512x4096_S1024x512_1_1_0_0_n_n none v0 v1 (constant (F := Ideal) S1024x512 .f32 0x00000000#32) (ix2 p q)
      = ∑ k : Fin 4096, v0 (ix2 p k) * v1 (ix2 q k) := by
  show FloatOps.matmul (F := Ideal) (φ₁ := .f32) (φ₂ := .f32) dot_S1024x4096_S512x4096_S1024x512_1_1_0_0_n_n none v0 v1 (constant (F := Ideal) S1024x512 .f32 0x00000000#32) (ix2 p q) = _
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun a => Fin.ext (by
    match a with
    | ⟨0, _⟩ => exact lhs_mm_0 _ _
    | ⟨1, _⟩ => exact (lhs_mm_1 _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun a => Fin.ext (by
    match a with
    | ⟨0, _⟩ => exact rhs_mm_0 _ _
    | ⟨1, _⟩ => exact (rhs_mm_1 _ _).trans hk)
  rw [el, er]

/-- The bias row, cast to its own shape and broadcast along the rows, at entry `(p, q)`: its entry `q`. -/
theorem bias_apply (v3 : Vec Ideal S1x512 .f32) (p : Fin 1024) (q : Fin 512) :
    broadcastTo S1024x512 (shapeCast S1x512 v3 shapeCasts_S1x512_S1x512) broadcasts_S1x512_S1024x512 (ix2 p q)
      = v3 (ix2 (0 : Fin 1) q) := by
  rw [shapeCast_self]
  refine broadcastTo_apply v3 broadcasts_S1x512_S1024x512 (ix2 p q) (ix2 (0 : Fin 1) q) (fun a => ?_)
  match a with
  | ⟨0, _⟩ => show (0 : Nat) = if (1 : Nat) = 1 then 0 else p.val; rw [if_pos rfl]
  | ⟨1, _⟩ => show q.val = if (512 : Nat) = 1 then 0 else q.val; rw [if_neg (by decide)]

/-! ## The stored value -/

/-- Entry `(p, q)` of what the body stores. -/
theorem stored_apply (v0 : Vec Ideal S1024x4096 .f32) (v1 : Vec Ideal S512x4096 .f32) (v3 : Vec Ideal S1x512 .f32)
    (p : Fin 1024) (q : Fin 512) :
    k0_pay1 (F := Ideal) v0 v1 v3 (ix2 p q) = (∑ k : Fin 4096, v0 (ix2 p k) * v1 (ix2 q k)) + v3 (ix2 (0 : Fin 1) q) :=
  congrArg₂ (· + ·) (product_apply v0 v1 p q) (bias_apply v3 p q)

/-- If row `p` of the left block is row `r` of a matrix `X`, row `q` of the right block is row `c` of a matrix `W`, and
    entry `q` of the bias block is entry `c` of a row `B`, then entry `(p, q)` of what the body stores is entry `(r, c)`
    of `X · Wᵀ + B`. -/
theorem stored_eq_affine (X W : (⟨2, ![4096, 4096]⟩ : Shape).Idx → EReal) (B : (⟨2, ![1, 4096]⟩ : Shape).Idx → EReal)
    (v0 : Vec Ideal S1024x4096 .f32) (v1 : Vec Ideal S512x4096 .f32) (v3 : Vec Ideal S1x512 .f32)
    (p : Fin 1024) (q : Fin 512) (r c : Fin 4096)
    (h0 : ∀ k : Fin 4096, v0 (ix2 p k) = X (ix2 r k))
    (h1 : ∀ k : Fin 4096, v1 (ix2 q k) = W (ix2 c k))
    (h2 : v3 (ix2 (0 : Fin 1) q) = B (ix2 (0 : Fin 1) c)) :
    k0_pay1 (F := Ideal) v0 v1 v3 (ix2 p q) = affine X W B (ix2 r c) := by
  rw [stored_apply, h2]
  show _ = (∑ k : Fin 4096, X (ix2 r k) * W (ix2 c k)) + B (ix2 (0 : Fin 1) c)
  exact congrArg (· + B (ix2 (0 : Fin 1) c)) (Finset.sum_congr rfl fun k _ => by rw [h0 k, h1 k])

end Cert.KernelIdeal.BodyValue

end
-- ==== Proof.ArrayValue.lean ====
/-
  The kernel's output array after the run is `x · Wᵀ + b` of the argument arrays.
  The grid has 4 × 8 points. At point `(i, j)` the kernel is given rows `1024·i … 1024·i + 1023` of `x` (all 4096
  columns), rows `512·j … 512·j + 511` of `W` (all 4096 columns) and columns `512·j … 512·j + 511` of the bias row, and
  writes back the block of the output at rows `1024·i …`, columns `512·j …`. Entry `(p, q)` of the block it stores is
  the full-length sum for output entry `(1024·i + p, 512·j + q)`, plus that column's bias: every point writes a block of
  ONE whole-array function. The 32 blocks tile the 4096 × 4096 output, so the array ends holding that function.
  The bias row the kernel stages is the bias vector reshaped to one row by the host before the launch.
-/
import proofs.«122096_g21251498180730_pilotgen1_62_2_alg».proof.Proof.Gen.KernelIdeal.Value
import proofs.«122096_g21251498180730_pilotgen1_62_2_alg».proof.Proof.BodyValue
import Idealize.ShloMosaic.Lib.StableHlo.Run

set_option maxRecDepth 16384

noncomputable section

open scoped BigOperators

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.Affine Cert.KernelIdeal.BodyValue
open Idealize.ShloMosaic.Pipeline (Dat)

variable (m : (ℓ : Loc nD τ sig) → Buf (Elt Ideal) ℓ) (ρ : Dev nD → PrngReg)

/-- The body's loads and its store start at the origin of their blocks. -/
theorem origin : (![0, 0] : Fin 2 → Nat) = fun _ => 0 := funext fun a => by fin_cases a <;> rfl

/-- How the four windows move over the grid: the `x` block follows the output's block ROW and the `W` block and
    the bias block follow the output's block COLUMN; each input keeps all of its other axis; the output's block
    indices range over 4 × 8. -/
theorem index_facts : ∀ t : Fin cfg0.N,
    win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 3
    ∧ win0_3.index t (1 : Fin 2) ≤ 7 :=
  (by decide +kernel : ∀ t : Fin grid0.N, _)

/-- Every one of the 4 × 8 output blocks is some point's. -/
theorem index_onto : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

/-- The output array as one function of the arrays the region finds: `x · Wᵀ` plus the staged bias row. -/
abbrev result (c : Dev nD) : (⟨2, ![4096, 4096]⟩ : Shape).Idx → EReal :=
  affine (V m c main_arg0) (V m c main_arg1) (V m c main_call0_v0)

/-- What point `t` writes back is block `t` of that function. -/
theorem flushed_eq (c : Dev nD) (t : Fin cfg0.N) :
    (dats m 0 c).flushed 3 t = ((cfg0.win 3).blk t).view.read (Elt Ideal) (result m c) := by
  rw [flushed3]
  unfold out0_3
  rw [View.canon_unit_zero origin]
  simp only [View.ld_unit_zero (S := S1024x4096) origin, View.ld_unit_zero (S := S512x4096) origin,
    View.ld_unit_zero (S := S1x512) origin]
  obtain ⟨e0, e1, e2, e3, e4, e5, b0, b1⟩ := index_facts t
  funext j
  obtain ⟨p, q, rfl⟩ : ∃ (p : Fin 1024) (q : Fin 512), j = ix2 p q := ⟨j 0, j 1, eq_ix2 j⟩
  have hp : p.val < 1024 := p.isLt
  have hq : q.val < 512 := q.isLt
  -- the output entry this block entry lands on
  have hemb : ((cfg0.win 3).blk t).view.emb (ix2 p q)
      = ix2 (⟨win0_3.index t (0 : Fin 2) * 1024 + p.val, by omega⟩ : Fin 4096) (⟨win0_3.index t (1 : Fin 2) * 512 + q.val, by omega⟩ : Fin 4096) := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 512 + 1 * q.val = win0_3.index t (1 : Fin 2) * 512 + q.val; omega
  show k0_pay1 (F := Ideal) (iblk m c 0 t) (iblk m c 1 t) (iblk m c 2 t) (ix2 p q)
    = result m c (((cfg0.win 3).blk t).view.emb (ix2 p q))
  rw [hemb]
  refine stored_eq_affine (V m c main_arg0) (V m c main_arg1) (V m c main_call0_v0)
    (iblk m c 0 t) (iblk m c 1 t) (iblk m c 2 t) p q _ _ ?_ ?_ ?_
  · -- row `p` of the `x` block is row `1024·i + p` of `x`
    intro k
    show V m c main_arg0 (((cfg0.win 0).blk t).view.emb (ix2 p k)) = V m c main_arg0 _
    refine congrArg (V m c main_arg0) (funext fun a => Fin.ext ?_)
    match a with
    | ⟨0, _⟩ => show win0_0.index t (0 : Fin 2) * 1024 + 1 * p.val = win0_3.index t (0 : Fin 2) * 1024 + p.val; omega
    | ⟨1, _⟩ => show win0_0.index t (1 : Fin 2) * 4096 + 1 * k.val = k.val; omega
  · -- row `q` of the `W` block is row `512·j + q` of `W`
    intro k
    show V m c main_arg1 (((cfg0.win 1).blk t).view.emb (ix2 q k)) = V m c main_arg1 _
    refine congrArg (V m c main_arg1) (funext fun a => Fin.ext ?_)
    match a with
    | ⟨0, _⟩ => show win0_1.index t (0 : Fin 2) * 512 + 1 * q.val = win0_3.index t (1 : Fin 2) * 512 + q.val; omega
    | ⟨1, _⟩ => show win0_1.index t (1 : Fin 2) * 4096 + 1 * k.val = k.val; omega
  · -- entry `q` of the bias block is entry `512·j + q` of the bias row
    show V m c main_call0_v0 (((cfg0.win 2).blk t).view.emb (ix2 (0 : Fin 1) q)) = V m c main_call0_v0 _
    refine congrArg (V m c main_call0_v0) (funext fun a => Fin.ext ?_)
    match a with
    | ⟨0, _⟩ => show win0_2.index t (0 : Fin 2) * 1 + 1 * (0 : Fin 1).val = (0 : Fin 1).val; simp [e4]
    | ⟨1, _⟩ => show win0_2.index t (1 : Fin 2) * 512 + 1 * q.val = win0_3.index t (1 : Fin 2) * 512 + q.val; omega

/-- An entry of the output is in point `t`'s block iff each coordinate is in the block's range on its axis. -/
theorem mem_block (t : Fin cfg0.N) (i : S4096x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0).slice (win0_3.rect t)).set ↔ _
  rw [View.set_slice_whole, Rect.mem_set_unit]
  exact Iff.rfl

/-- The blocks tile the output: entry `(r, c)` lies in the block of row `r / 1024`, column `c / 512`. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := index_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The output array after the run. -/
theorem final_array (c : Dev nD) : (dats m 0 c).arrAt 3 cfg0.N = result m c :=
  (dats m 0 c).arrAt_eq_of_cover 3 (result m c) (fun t _ => flushed_eq m c t) covered

/-- The bias row the region finds is the bias vector reshaped to one row: the one host operation before the launch. -/
theorem bias_row (c : Dev nD) :
    (V m c main_call0_v0 : S1x4096.Idx → EReal)
      = shapeCast S1x4096 (m ((c : Thread nD τ).loc main_arg2)) shapeCasts_S4096_S1x4096 := by
  dsimp only [Gen.V, Gen.hostOps0]
  after_results
  rfl

/-- The run: the output array ends at `x · Wᵀ + b` of the arguments as launched, the arguments unchanged. -/
theorem run : θ_run defs (onTc (τ := τ) (main (F := Ideal))) ⟨m, fun _ => 0, ρ⟩ fun r => ∀ c : Dev nD,
      r.2.mem ((c : Thread nD τ).loc main_v0)
        = affine (m ((c : Thread nD τ).loc main_arg0)) (m ((c : Thread nD τ).loc main_arg1))
            (shapeCast S1x4096 (m ((c : Thread nD τ).loc main_arg2)) shapeCasts_S4096_S1x4096)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final_array m c).trans (by
      show affine (V m c main_arg0) (V m c main_arg1) (V m c main_call0_v0) = _
      rw [V_main_arg0, V_main_arg1, bias_row])), (h c).2⟩)
    (run_blocks m ρ)

end Cert.KernelIdeal.ArrayValue

end
-- ==== Proof.lean ====
/-
  A linear layer, `x · Wᵀ + b` with `x` and `W` 4096 × 4096 and `b` of 4096 entries, computed by a tiled kernel and by
  a plain reference, give the same result over the extended reals.

  The kernel tiles the output into 4 × 8 blocks of 1024 × 512. For each block it multiplies 1024 whole rows of `x` by
  the transpose of 512 whole rows of `W` (the full contraction length at once, into a zero accumulator) and adds the
  matching 512 bias entries along the rows. The reference transposes `W`, takes the whole matrix product and adds the
  bias broadcast along the rows. Entry `(r, c)` is on both sides the sum over `k = 0 … 4095` of `x[r, k] · W[c, k]`, in
  that order and with the factors in that order, plus `b[c]`: the two sides are the same expression term by term, so no
  algebraic law is needed and the finiteness of the inputs is never used.

  Proof/AffineSpec.lean states that function. Proof/ReferenceValue.lean shows the reference computes it,
  Proof/BodyValue.lean that one block entry of the kernel body is one entry of it, and Proof/ArrayValue.lean that the 32
  blocks written back make up the whole array. The idealized kernel is the kernel's own text read over the extended
  reals (no operation was rewritten), so there is nothing to preserve.
-/
import proofs.«122096_g21251498180730_pilotgen1_62_2_alg».proof.Defs
import proofs.«122096_g21251498180730_pilotgen1_62_2_alg».proof.Proof.Gen.Kernel
import proofs.«122096_g21251498180730_pilotgen1_62_2_alg».proof.Proof.Gen.Kernel.Skeleton
import proofs.«122096_g21251498180730_pilotgen1_62_2_alg».proof.Proof.Gen.Kernel.Launch
import proofs.«122096_g21251498180730_pilotgen1_62_2_alg».proof.Proof.Gen.Kernel.Points
import proofs.«122096_g21251498180730_pilotgen1_62_2_alg».proof.Proof.Gen.Kernel.Frame
import proofs.«122096_g21251498180730_pilotgen1_62_2_alg».proof.Proof.Gen.KernelIdeal
import proofs.«122096_g21251498180730_pilotgen1_62_2_alg».proof.Proof.Gen.KernelIdeal.Skeleton
import proofs.«122096_g21251498180730_pilotgen1_62_2_alg».proof.Proof.Gen.KernelIdeal.Launch
import proofs.«122096_g21251498180730_pilotgen1_62_2_alg».proof.Proof.Gen.KernelIdeal.Points
import proofs.«122096_g21251498180730_pilotgen1_62_2_alg».proof.Proof.Gen.KernelIdeal.Frame
import proofs.«122096_g21251498180730_pilotgen1_62_2_alg».proof.Proof.Gen.ReferenceIdeal
import proofs.«122096_g21251498180730_pilotgen1_62_2_alg».proof.Proof.Gen.Pre_finite_inputs
import proofs.«122096_g21251498180730_pilotgen1_62_2_alg».proof.Proof.Gen.KernelIdeal.Value
import proofs.«122096_g21251498180730_pilotgen1_62_2_alg».proof.Proof.Gen.ReferenceIdeal.Run
import proofs.«122096_g21251498180730_pilotgen1_62_2_alg».proof.Proof.Gen.ReferenceIdeal.Read
import proofs.«122096_g21251498180730_pilotgen1_62_2_alg».proof.Proof.ReferenceValue
import proofs.«122096_g21251498180730_pilotgen1_62_2_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is five host operations; its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- Both programs end with `x · Wᵀ + b` of the arguments they were launched with, and the arguments agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
